-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v0_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S32768x3 : Shape := ⟨2, ![32768, 3]⟩
abbrev S_ : Shape := ⟨0, ![]⟩

class Facts : Prop where
  bcast_S_S32768x3 : S_.BroadcastsInDim S32768x3 (![] : Fin 0 → Fin S32768x3.rank)
  reducesTo_S32768x3_S_d0_1 : S32768x3.ReducesTo [0, 1] S_
  h_S_ : 0 < S_.numel

variable [Facts]

def fn {F : FTy → Type} [FloatOps F] (main_arg0 : IVec S64 32) (main_arg1 : FVec F S32768x3 .f32) : IVec S_ 1 :=
  let main_v0 : FVec F S32768x3 .f32 := Host.absf main_arg1
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_c : IVec S_ 1 := constantI S_ 1 1#1
  let main_v3 : IVec S_ 1 := (fun x v => Host.reduce IntOp.andi x v reducesTo_S32768x3_S_d0_1 h_S_) main_v2 main_c
  main_v3
-- ==== Kernel.lean ====
abbrev S64 : Shape := ⟨1, ![64]⟩
abbrev S32768x3 : Shape := ⟨2, ![32768, 3]⟩
abbrev S64x512x512 : Shape := ⟨3, ![64, 512, 512]⟩
abbrev S512x3 : Shape := ⟨2, ![512, 3]⟩
abbrev S1x512x512 : Shape := ⟨3, ![1, 512, 512]⟩
abbrev S512x1x3 : Shape := ⟨3, ![512, 1, 3]⟩
abbrev S1x512x3 : Shape := ⟨3, ![1, 512, 3]⟩
abbrev S512x512x3 : Shape := ⟨3, ![512, 512, 3]⟩
abbrev S512x512 : Shape := ⟨2, ![512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512x1 : Shape := ⟨3, ![512, 512, 1]⟩
abbrev S512x512x2 : Shape := ⟨3, ![512, 512, 2]⟩
abbrev S64x1x1x1 : Shape := ⟨4, ![64, 1, 1, 1]⟩
abbrev S1x512x512x2 : Shape := ⟨4, ![1, 512, 512, 2]⟩
abbrev S64x512x512x2 : Shape := ⟨4, ![64, 512, 512, 2]⟩
abbrev S16777216x2 : Shape := ⟨2, ![16777216, 2]⟩
abbrev S16777216 : Shape := ⟨1, ![16777216]⟩

abbrev nBuf : Space → Nat
  | .hbm => 30
  | .vmem => 6
  | .smem => 0
  | _ => 0

abbrev bufTy : (tb : Table) → Fin (tcTables nBuf tb) → BufTy
  | .hbm, ⟨0, _⟩ => ⟨S64, .i32⟩
  | .hbm, ⟨1, _⟩ => ⟨S32768x3, .f32⟩
  | .hbm, ⟨2, _⟩ => ⟨S64x512x512, .f32⟩
  | .hbm, ⟨3, _⟩ => ⟨S64x512x512, .i32⟩
  | .hbm, ⟨4, _⟩ => ⟨S_, .i32⟩
  | .hbm, ⟨5, _⟩ => ⟨S64x512x512, .i32⟩
  | .hbm, ⟨6, _⟩ => ⟨S64x512x512, .i1⟩
  | .hbm, ⟨7, _⟩ => ⟨S64x512x512, .i1⟩
  | .hbm, ⟨8, _⟩ => ⟨S64x512x512, .i32⟩
  | .hbm, ⟨9, _⟩ => ⟨S_, .i32⟩
  | .hbm, ⟨10, _⟩ => ⟨S64, .i32⟩
  | .hbm, ⟨11, _⟩ => ⟨S512, .i32⟩
  | .hbm, ⟨12, _⟩ => ⟨S512x1, .i32⟩
  | .hbm, ⟨13, _⟩ => ⟨S512x512, .i32⟩
  | .hbm, ⟨14, _⟩ => ⟨S1x512, .i32⟩
  | .hbm, ⟨15, _⟩ => ⟨S512x512, .i32⟩
  | .hbm, ⟨16, _⟩ => ⟨S512x512x1, .i32⟩
  | .hbm, ⟨17, _⟩ => ⟨S512x512x1, .i32⟩
  | .hbm, ⟨18, _⟩ => ⟨S512x512x2, .i32⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64x1x1x1, .i32⟩
  | .hbm, ⟨24, _⟩ => ⟨S1x512x512x2, .i32⟩
  | .hbm, ⟨25, _⟩ => ⟨S64x512x512x2, .i32⟩
  | .hbm, ⟨26, _⟩ => ⟨S64x512x512x2, .i32⟩
  | .hbm, ⟨27, _⟩ => ⟨S64x512x512x2, .i32⟩
  | .hbm, ⟨28, _⟩ => ⟨S16777216x2, .i32⟩
  | .hbm, ⟨29, _⟩ => ⟨S16777216, .i1⟩
  | .local _ .vmem, ⟨0, _⟩ => ⟨S512x3, .f32⟩
  | .local _ .vmem, ⟨1, _⟩ => ⟨S512x3, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .i32⟩
  | .local _ .vmem, ⟨5, _⟩ => ⟨S1x512x512, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x3_S512x3_0_0 : ∀ a, (![0, 0] : Fin 2 → Nat) a + S512x3.size a ≤ S512x3.size a
  h_S512x3 : 0 < S512x3.numel
  shapeCasts_S512x3_S512x1x3 : S512x3.ShapeCasts S512x1x3
  shapeCasts_S512x3_S1x512x3 : S512x3.ShapeCasts S1x512x3
  broadcasts_S512x1x3_S512x512x3 : S512x1x3.Broadcasts S512x512x3
  broadcasts_S1x512x3_S512x512x3 : S1x512x3.Broadcasts S512x512x3
  reduces_S512x512x3_S512x512 : S512x512x3.Reduces [2] S512x512
  iota_S512x512_d0_w32 : S512x512.Iotas .tc 32 [0]
  iota_S512x512_d1_w32 : S512x512.Iotas .tc 32 [1]
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  natLt_1_32 : 1 < 32
  bcast_S_S64x512x512 : S_.BroadcastsInDim S64x512x512 (![] : Fin 0 → Fin S64x512x512.rank)
  reducesTo_S64x512x512_S64_d1_2 : S64x512x512.ReducesTo [1, 2] S64
  h_S_ : 0 < S_.numel
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S_S64 : S_.BroadcastsInDim S64 (![] : Fin 0 → Fin S64.rank)
  bcast_S64_S64x1x1x1_0 : S64.BroadcastsInDim S64x1x1x1 (![0] : Fin 1 → Fin S64x1x1x1.rank)
  bcast_S512x512x2_S1x512x512x2_1_2_3 : S512x512x2.BroadcastsInDim S1x512x512x2 (![1, 2, 3] : Fin 3 → Fin S1x512x512x2.rank)
  bcast_S1x512x512x2_S64x512x512x2_0_1_2_3 : S1x512x512x2.BroadcastsInDim S64x512x512x2 (![0, 1, 2, 3] : Fin 4 → Fin S64x512x512x2.rank)
  bcast_S64x1x1x1_S64x512x512x2_0_1_2_3 : S64x1x1x1.BroadcastsInDim S64x512x512x2 (![0, 1, 2, 3] : Fin 4 → Fin S64x512x512x2.rank)
  shapeCasts_S64x512x512x2_S16777216x2 : S64x512x512x2.ShapeCasts S16777216x2
  shapeCasts_S64x512x512_S16777216 : S64x512x512.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S32768x3.size a
  hwx0_0 : ∀ i : grid0.Coords, EltTy.bits .f32 = 32 ∨ (Rect.block (s := S32768x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .i32 = 32 ∨ (Rect.block (s := S64x512x512) S1x512x512.size (cc0_transform_2 i) (hinb0_2 i)).WholeWords (EltTy.packing .i32)

variable [Facts₀]

abbrev win0_0 : Pipeline.Window sig grid0 :=
  Pipeline.Window.ofSpec (Memref.whole main_arg1) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64 : Shape := ⟨1, ![64]⟩
abbrev S32768x3 : Shape := ⟨2, ![32768, 3]⟩
abbrev S64x512x3 : Shape := ⟨3, ![64, 512, 3]⟩
abbrev S64x512x1x3 : Shape := ⟨4, ![64, 512, 1, 3]⟩
abbrev S64x1x512x3 : Shape := ⟨4, ![64, 1, 512, 3]⟩
abbrev S64x512x512x3 : Shape := ⟨4, ![64, 512, 512, 3]⟩
abbrev S_ : Shape := ⟨0, ![]⟩
abbrev S64x512x512 : Shape := ⟨3, ![64, 512, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x512 : Shape := ⟨2, ![1, 512]⟩
abbrev S512x512x1 : Shape := ⟨3, ![512, 512, 1]⟩
abbrev S512x512x2 : Shape := ⟨3, ![512, 512, 2]⟩
abbrev S64x1x1x1 : Shape := ⟨4, ![64, 1, 1, 1]⟩
abbrev S1x512x512x2 : Shape := ⟨4, ![1, 512, 512, 2]⟩
abbrev S64x512x512x2 : Shape := ⟨4, ![64, 512, 512, 2]⟩
abbrev S16777216x2 : Shape := ⟨2, ![16777216, 2]⟩
abbrev S16777216 : Shape := ⟨1, ![16777216]⟩

abbrev nBuf : Space → Nat
  | .hbm => 47
  | .vmem => 0
  | .smem => 0
  | _ => 0

abbrev bufTy : (tb : Table) → Fin (tcTables nBuf tb) → BufTy
  | .hbm, ⟨0, _⟩ => ⟨S64, .i32⟩
  | .hbm, ⟨1, _⟩ => ⟨S32768x3, .f32⟩
  | .hbm, ⟨2, _⟩ => ⟨S64x512x3, .f32⟩
  | .hbm, ⟨3, _⟩ => ⟨S64x512x1x3, .f32⟩
  | .hbm, ⟨4, _⟩ => ⟨S64x1x512x3, .f32⟩
  | .hbm, ⟨5, _⟩ => ⟨S64x512x512x3, .f32⟩
  | .hbm, ⟨6, _⟩ => ⟨S64x512x512x3, .f32⟩
  | .hbm, ⟨7, _⟩ => ⟨S64x512x512x3, .f32⟩
  | .hbm, ⟨8, _⟩ => ⟨S64x512x512x3, .f32⟩
  | .hbm, ⟨9, _⟩ => ⟨S_, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .i1⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S1x512x512, .i1⟩
  | .hbm, ⟨22, _⟩ => ⟨S1x512x512, .i1⟩
  | .hbm, ⟨23, _⟩ => ⟨S64x512x512, .i1⟩
  | .hbm, ⟨24, _⟩ => ⟨S64x512x512, .i1⟩
  | .hbm, ⟨25, _⟩ => ⟨S64x512x512, .i32⟩
  | .hbm, ⟨26, _⟩ => ⟨S_, .i32⟩
  | .hbm, ⟨27, _⟩ => ⟨S64, .i32⟩
  | .hbm, ⟨28, _⟩ => ⟨S512, .i32⟩
  | .hbm, ⟨29, _⟩ => ⟨S512x1, .i32⟩
  | .hbm, ⟨30, _⟩ => ⟨S512x512, .i32⟩
  | .hbm, ⟨31, _⟩ => ⟨S1x512, .i32⟩
  | .hbm, ⟨32, _⟩ => ⟨S512x512, .i32⟩
  | .hbm, ⟨33, _⟩ => ⟨S512x512x1, .i32⟩
  | .hbm, ⟨34, _⟩ => ⟨S512x512x1, .i32⟩
  | .hbm, ⟨35, _⟩ => ⟨S512x512x2, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64x1x1x1, .i32⟩
  | .hbm, ⟨41, _⟩ => ⟨S1x512x512x2, .i32⟩
  | .hbm, ⟨42, _⟩ => ⟨S64x512x512x2, .i32⟩
  | .hbm, ⟨43, _⟩ => ⟨S64x512x512x2, .i32⟩
  | .hbm, ⟨44, _⟩ => ⟨S64x512x512x2, .i32⟩
  | .hbm, ⟨45, _⟩ => ⟨S16777216x2, .i32⟩
  | .hbm, ⟨46, _⟩ => ⟨S16777216, .i1⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]

class Facts₀ : Prop where
  shapeCasts_S32768x3_S64x512x3 : S32768x3.ShapeCasts S64x512x3
  bcast_S64x512x3_S64x512x1x3_0_1_3 : S64x512x3.BroadcastsInDim S64x512x1x3 (![0, 1, 3] : Fin 3 → Fin S64x512x1x3.rank)
  bcast_S64x512x3_S64x1x512x3_0_2_3 : S64x512x3.BroadcastsInDim S64x1x512x3 (![0, 2, 3] : Fin 3 → Fin S64x1x512x3.rank)
  bcast_S64x512x1x3_S64x512x512x3_0_1_2_3 : S64x512x1x3.BroadcastsInDim S64x512x512x3 (![0, 1, 2, 3] : Fin 4 → Fin S64x512x512x3.rank)
  bcast_S64x1x512x3_S64x512x512x3_0_1_2_3 : S64x1x512x3.BroadcastsInDim S64x512x512x3 (![0, 1, 2, 3] : Fin 4 → Fin S64x512x512x3.rank)
  reducesTo_S64x512x512x3_S64x512x512_d3 : S64x512x512x3.ReducesTo [3] S64x512x512
  h_S_ : 0 < S_.numel
  bcast_S_S64x512x512 : S_.BroadcastsInDim S64x512x512 (![] : Fin 0 → Fin S64x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  natLt_1_32 : 1 < 32
  reducesTo_S64x512x512_S64_d1_2 : S64x512x512.ReducesTo [1, 2] S64
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S_S64 : S_.BroadcastsInDim S64 (![] : Fin 0 → Fin S64.rank)
  bcast_S64_S64x1x1x1_0 : S64.BroadcastsInDim S64x1x1x1 (![0] : Fin 1 → Fin S64x1x1x1.rank)
  bcast_S512x512x2_S1x512x512x2_1_2_3 : S512x512x2.BroadcastsInDim S1x512x512x2 (![1, 2, 3] : Fin 3 → Fin S1x512x512x2.rank)
  bcast_S1x512x512x2_S64x512x512x2_0_1_2_3 : S1x512x512x2.BroadcastsInDim S64x512x512x2 (![0, 1, 2, 3] : Fin 4 → Fin S64x512x512x2.rank)
  bcast_S64x1x1x1_S64x512x512x2_0_1_2_3 : S64x1x1x1.BroadcastsInDim S64x512x512x2 (![0, 1, 2, 3] : Fin 4 → Fin S64x512x512x2.rank)
  shapeCasts_S64x512x512x2_S16777216x2 : S64x512x512x2.ShapeCasts S16777216x2
  shapeCasts_S64x512x512_S16777216 : S64x512x512.ShapeCasts S16777216

variable [Facts₀]

class Facts : Prop extends Facts₀ where

variable [Facts]
-- ==== Proof.Spec.lean ====
/-
  The mathematics of the pairwise-distance kernel, with no program in sight.

  There are 64 graphs of 512 nodes each; node `p` of graph `b` is row `b * 512 + p` of the position table
  (32768 rows of 3 coordinates). For two nodes `p`, `q` of one graph the squared distance is the sum over the
  three coordinates of the squared difference, the distance its square root, and the pair is kept as an edge when
  the distance is at most the cutoff `5.0` and `p` and `q` are different nodes. Everything is read on the
  extended reals, where a sum of three terms does not depend on the order it is taken in.
-/
import Idealize.ShloMosaic.PureOps.Ideal
import Idealize.ShloMosaic.PureOps.Ideal.Laws
import Idealize.ShloMosaic.Lib.ValueIdx

noncomputable section

namespace Cert.PairDist

open Idealize.ShloMosaic Idealize.ShloMosaic.ValueIdx

/-- The position table: 32768 nodes, 3 coordinates. -/
abbrev SPos : Shape := ⟨2, ![32768, 3]⟩
/-- One entry per graph and ordered pair of its nodes. -/
abbrev SPair : Shape := ⟨3, ![64, 512, 512]⟩

/-- The row of the position table that holds node `p` of graph `b`. -/
def node (b : Fin 64) (p : Fin 512) : Fin 32768 := ⟨b.val * 512 + p.val, by have := b.isLt; have := p.isLt; omega⟩

theorem node_val (b : Fin 64) (p : Fin 512) : (node b p).val = b.val * 512 + p.val := rfl

/-- The squared distance between nodes `p` and `q` of graph `b`: over the three coordinates, the squared difference. -/
def sqDist (x : SPos.Idx → EReal) (b : Fin 64) (p q : Fin 512) : EReal :=
  ∑ k : Fin 3, (x (ix2 (node b p) k) - x (ix2 (node b q) k)) * (x (ix2 (node b p) k) - x (ix2 (node b q) k))

/-- The distance. -/
def dist (x : SPos.Idx → EReal) (b : Fin 64) (p q : Fin 512) : EReal := Ideal.sqrt (sqDist x b p q)

/-- The pair is an edge: within the cutoff `5.0`, and not a self loop. -/
def keep (x : SPos.Idx → EReal) (b : Fin 64) (p q : Fin 512) : BitVec 1 :=
  IntOp.andi (Ideal.cmp .ole (dist x b p q) (Ideal.ofBits .f32 0x40A00000#32))
    (IntOp.cmpi .ne (BitVec.ofNat 32 p.val) (BitVec.ofNat 32 q.val))

/-- All distances, as one array. -/
def distArr (x : SPos.Idx → EReal) : SPair.Idx → EReal := fun i => dist x (i 0) (i 1) (i 2)

/-- All edge bits, as one array. -/
def keepArr (x : SPos.Idx → EReal) : SPair.Idx → BitVec 1 := fun i => keep x (i 0) (i 1) (i 2)

/-! ## Two facts about single bits -/

/-- "Not equal to" spelt as the complement of "equal to, after adding zero". -/
theorem not_eq_add_zero (a b : BitVec 32) :
    ~~~(IntOp.cmpi .eq (IntOp.addi a 0#32) b) = IntOp.cmpi .ne a b := by
  show ~~~(BitVec.ofBool (a + 0#32 == b)) = BitVec.ofBool (a != b)
  rw [BitVec.add_zero]
  by_cases h : a = b
  · subst h; simp
  · have h1 : (a == b) = false := by simpa using h
    have h2 : (a != b) = true := by simpa using h
    rw [h1, h2]; decide

/-- A bit widened to a word is nonzero exactly when the bit is set. -/
theorem widen_ne_zero (v : BitVec 1) : IntOp.cmpi .ne (v.setWidth 32) 0#32 = v := by
  show BitVec.ofBool (v.setWidth 32 != 0#32) = v
  revert v; decide

end Cert.PairDist

end
-- ==== Proof.Body.lean ====
/-
  What the kernel body computes from one graph's block of positions, entry by entry.

  The body loads a block `x0` of 512 rows of 3 coordinates, views it once as a column of rows (512 × 1 × 3) and once as a
  row of rows (1 × 512 × 3), broadcasts both to 512 × 512 × 3, subtracts, squares, sums the last axis from zero and takes the
  square root: at `(p, q)` that is the distance between rows `p` and `q` of the block. The edge word at `(p, q)` is the bit
  "distance at most 5.0 and p ≠ q" widened to 32 bits, the two indices being the two one-axis iotas. Both results are stored
  under a leading unit axis. When the block holds the rows of graph `b` these are the specification's entries at `(b, p, q)`.
-/
import proofs.«102643_j72224170049741_1_alg».proof.Proof.Gen.KernelIdeal.Skeleton
import proofs.«102643_j72224170049741_1_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.PairDist

/-- The column-of-rows view broadcast over the second axis reads row `p`. -/
theorem rows_apply (x0 : S512x3.Idx → EReal) (h1 : S512x3.ShapeCasts S512x1x3) (h2 : S512x1x3.Broadcasts S512x512x3)
    (p q : Fin 512) (k : Fin 3) :
    broadcastTo S512x512x3 (shapeCast S512x1x3 x0 h1) h2 (ix3 p q k) = x0 (ix2 p k) := by
  refine (broadcastTo_apply (shapeCast S512x1x3 x0 h1) h2 (ix3 p q k) (ix3 p (⟨0, Nat.one_pos⟩ : Fin 1) k) (fun a => ?_)).trans ?_
  · match a with
    | ⟨0, _⟩ => show p.val = if (512 : Nat) = 1 then 0 else p.val; rw [if_neg (by decide)]
    | ⟨1, _⟩ => show 0 = if (1 : Nat) = 1 then 0 else q.val; rw [if_pos rfl]
    | ⟨2, _⟩ => show k.val = if (3 : Nat) = 1 then 0 else k.val; rw [if_neg (by decide)]
  · refine shapeCast_apply x0 h1 _ (ix2 p k) ?_
    rewrite [Shape.rowMajor_val_two, Shape.rowMajor_val_three]
    show p.val * 3 + k.val = (p.val * 1 + 0) * 3 + k.val
    omega

/-- The row-of-rows view broadcast over the first axis reads row `q`. -/
theorem cols_apply (x0 : S512x3.Idx → EReal) (h1 : S512x3.ShapeCasts S1x512x3) (h2 : S1x512x3.Broadcasts S512x512x3)
    (p q : Fin 512) (k : Fin 3) :
    broadcastTo S512x512x3 (shapeCast S1x512x3 x0 h1) h2 (ix3 p q k) = x0 (ix2 q k) := by
  refine (broadcastTo_apply (shapeCast S1x512x3 x0 h1) h2 (ix3 p q k) (ix3 (⟨0, Nat.one_pos⟩ : Fin 1) q k) (fun a => ?_)).trans ?_
  · match a with
    | ⟨0, _⟩ => show 0 = if (1 : Nat) = 1 then 0 else p.val; rw [if_pos rfl]
    | ⟨1, _⟩ => show q.val = if (512 : Nat) = 1 then 0 else q.val; rw [if_neg (by decide)]
    | ⟨2, _⟩ => show k.val = if (3 : Nat) = 1 then 0 else k.val; rw [if_neg (by decide)]
  · refine shapeCast_apply x0 h1 _ (ix2 q k) ?_
    rewrite [Shape.rowMajor_val_two, Shape.rowMajor_val_three]
    show q.val * 3 + k.val = (0 * 512 + q.val) * 3 + k.val
    omega

/-- The sum over the last axis, from zero, at `(p, q)`: the three entries `(p, q, k)`. -/
theorem lane_sum_apply (v : FVec Ideal S512x512x3 .f32) (h : S512x512x3.Reduces [2] S512x512) (hφ : FKind.Formats .f32)
    (hacc : (0x00000000#32 : BitVec FTy.f32.bits) = FKind.add.neutral .f32 hφ) (p q : Fin 512) :
    multiReduction .add [2] S512x512 v 0x00000000#32 h hφ hacc (ix2 p q) = ∑ k : Fin 3, v (ix3 p q k) := by
  refine (Ideal.multiReduction_add_single v _ h hφ hacc (ix2 p q)).trans ?_
  refine Finset.sum_congr rfl fun k _ => congrArg v ?_
  funext a; apply Fin.ext
  match a with
  | ⟨0, _⟩ => rfl
  | ⟨1, _⟩ => rfl
  | ⟨2, _⟩ => rfl

/-- The distance payload at `(p, q)`: the distance between rows `p` and `q` of the block. -/
theorem pay1_apply (x0 : S512x3.Idx → EReal) (p q : Fin 512) :
    k0_pay1 (F := Ideal) x0 (ix2 p q)
      = Ideal.sqrt (∑ k : Fin 3, (x0 (ix2 p k) - x0 (ix2 q k)) * (x0 (ix2 p k) - x0 (ix2 q k))) := by
  unfold k0_pay1
  refine congrArg Ideal.sqrt ((lane_sum_apply _ _ _ _ p q).trans (Finset.sum_congr rfl fun k _ => ?_))
  simp only [mulf_apply, subf_apply, rows_apply, cols_apply]

/-- The stored distance block at `(0, p, q)` is the distance payload at `(p, q)`. -/
theorem pay2_apply (x0 : S512x3.Idx → EReal) (z : Fin 1) (p q : Fin 512) :
    k0_pay2 (F := Ideal) x0 (ix3 z p q) = k0_pay1 (F := Ideal) x0 (ix2 p q) := by
  unfold k0_pay2
  refine (shapeCast_addUnit_apply ![512, 512] (k0_pay1 (F := Ideal) x0) _ (ix3 z p q)).trans (congrArg _ ?_)
  funext a
  match a with
  | ⟨0, _⟩ => rfl
  | ⟨1, _⟩ => rfl

/-- The stored edge word at `(0, p, q)`: the bit "distance at most 5.0 and p ≠ q", widened. -/
theorem pay3_apply (x0 : S512x3.Idx → EReal) (z : Fin 1) (p q : Fin 512) :
    k0_pay3 (F := Ideal) x0 (ix3 z p q)
      = (IntOp.andi (Ideal.cmp .ole (k0_pay1 (F := Ideal) x0 (ix2 p q)) (Ideal.ofBits .f32 0x40A00000#32))
          (IntOp.cmpi .ne (BitVec.ofNat 32 p.val) (BitVec.ofNat 32 q.val))).setWidth 32 := by
  unfold k0_pay3
  refine (shapeCast_addUnit_apply ![512, 512] _ _ (ix3 z p q)).trans ?_
  have e : (fun a : Fin 2 => (ix3 z p q) a.succ) = ix2 p q := by
    funext a
    match a with
    | ⟨0, _⟩ => rfl
    | ⟨1, _⟩ => rfl
  rw [e]
  show (IntOp.andi (Ideal.cmp .ole _ _) (IntOp.cmpi .ne (iota .tc S512x512 32 [0] _ (ix2 p q)) (iota .tc S512x512 32 [1] _ (ix2 p q)))).setWidth 32 = _
  rw [iota_single_apply, iota_single_apply]
  rfl

/-! ## A block that holds the rows of graph `b` -/

/-- The distance block of graph `b`, entry by entry: the specification's distances of graph `b`. -/
theorem block_dist_apply (X : SPos.Idx → EReal) (x0 : S512x3.Idx → EReal) (b : Fin 64)
    (hx : ∀ (p : Fin 512) (k : Fin 3), x0 (ix2 p k) = X (ix2 (node b p) k)) (z : Fin 1) (p q : Fin 512) :
    k0_pay2 (F := Ideal) x0 (ix3 z p q) = distArr X (ix3 b p q) := by
  rw [pay2_apply, pay1_apply]
  simp only [hx]
  rfl

/-- The edge words of graph `b`, entry by entry: the specification's edge bits of graph `b`, widened. -/
theorem block_keep_apply (X : SPos.Idx → EReal) (x0 : S512x3.Idx → EReal) (b : Fin 64)
    (hx : ∀ (p : Fin 512) (k : Fin 3), x0 (ix2 p k) = X (ix2 (node b p) k)) (z : Fin 1) (p q : Fin 512) :
    k0_pay3 (F := Ideal) x0 (ix3 z p q) = (keepArr X (ix3 b p q)).setWidth 32 := by
  rw [pay3_apply, pay1_apply]
  simp only [hx]
  rfl

/-- The same two facts as equalities of whole blocks. -/
theorem block_dist (X : SPos.Idx → EReal) (x0 : S512x3.Idx → EReal) (b : Fin 64)
    (hx : ∀ (p : Fin 512) (k : Fin 3), x0 (ix2 p k) = X (ix2 (node b p) k)) :
    k0_pay2 (F := Ideal) x0 = fun j : S1x512x512.Idx => distArr X (ix3 b (j 1) (j 2)) := by
  funext j
  obtain ⟨z, p, q, rfl⟩ : ∃ (z : Fin 1) (p q : Fin 512), j = ix3 z p q := ⟨j 0, j 1, j 2, eq_ix3 j⟩
  exact block_dist_apply X x0 b hx z p q

theorem block_keep (X : SPos.Idx → EReal) (x0 : S512x3.Idx → EReal) (b : Fin 64)
    (hx : ∀ (p : Fin 512) (k : Fin 3), x0 (ix2 p k) = X (ix2 (node b p) k)) :
    k0_pay3 (F := Ideal) x0 = fun j : S1x512x512.Idx => (keepArr X (ix3 b (j 1) (j 2))).setWidth 32 := by
  funext j
  obtain ⟨z, p, q, rfl⟩ : ∃ (z : Fin 1) (p q : Fin 512), j = ix3 z p q := ⟨j 0, j 1, j 2, eq_ix3 j⟩
  exact block_keep_apply X x0 b hx z p q

end Cert.KernelIdeal.Body

end
-- ==== Proof.Arrays.lean ====
/-
  From blocks to whole arrays: what the two arrays the kernel writes hold after the run.

  The grid has one point per graph. At point `t` the input window stages rows `t * 512 … t * 512 + 511` of the position
  table — the nodes of graph `t` — and each output window writes back the slab `(t, ·, ·)` of its array. The body leaves in
  the two output blocks the distances and the widened edge bits of the staged rows, so what point `t` writes back is the
  slab `t` of ONE function of the whole position table; the 64 slabs tile the arrays, so after the run the distance array is the
  specification's and the edge-word array is the specification's edge bits, widened.
-/
import proofs.«102643_j72224170049741_1_alg».proof.Proof.Gen.KernelIdeal.Frame
import proofs.«102643_j72224170049741_1_alg».proof.Proof.Body
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.PairDist
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 64 points: every window's block index is `(t, 0, …)`. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The graph a grid point works on. -/
def graphOf (t : Fin cfg0.N) : Fin 64 := ⟨t.val, by have h := t.isLt; have e : cfg0.N = 64 := N_0; omega⟩

theorem graphOf_val (t : Fin cfg0.N) : (graphOf t).val = t.val := rfl

/-- The position table as the region finds it. -/
abbrev posArr (c : Dev nD) : SPos.Idx → EReal := V m c main_arg1

/-- The block of positions staged at point `t`. -/
abbrev posBlock (c : Dev nD) (t : Fin cfg0.N) : S512x3.Idx → EReal := iblk m c 0 t

/-- The staged block holds the rows of graph `t`. -/
theorem posBlock_rows (c : Dev nD) (t : Fin cfg0.N) (p : Fin 512) (k : Fin 3) :
    posBlock m c t (ix2 p k) = posArr m c (ix2 (node (graphOf t) p) k) := by
  obtain ⟨e0, e1, -⟩ := idx_facts t
  show V m c main_arg1 (((cfg0.win 0).blk t).view.emb (ix2 p k)) = V m c main_arg1 (ix2 (node (graphOf t) p) k)
  refine congrArg (V m c main_arg1) ?_
  funext a; apply Fin.ext
  match a with
  | ⟨0, _⟩ =>
    show win0_0.index t (0 : Fin 2) * 512 + 1 * p.val = t.val * 512 + p.val
    omega
  | ⟨1, _⟩ =>
    show win0_0.index t (1 : Fin 2) * 3 + 1 * k.val = k.val
    omega

/-! ## What a point writes back -/

/-- Point `t` writes back slab `t` of the specification's distances. -/
theorem flushed_dist (c : Dev nD) (t : Fin cfg0.N) :
    (dats m 0 c).flushed 1 t = ((cfg0.win 1).blk t).view.read (Elt Ideal) (distArr (posArr m c)) := by
  show (cfg0.win 1).cut (grid0.coords t) ((dats m 0 c).after 1 t) = _
  rw [after0_1]
  unfold out0_1
  rw [View.canon_unit_zero zeros3]
  simp only [View.ld_unit_zero (S := S512x3) zeros2]
  obtain ⟨-, -, e2, e3, e4, -⟩ := idx_facts t
  funext j
  show k0_pay2 (F := Ideal) (posBlock m c t) j = distArr (posArr m c) (((cfg0.win 1).blk t).view.emb j)
  rw [Body.block_dist (posArr m c) (posBlock m c t) (graphOf t) (posBlock_rows m c t)]
  refine congrArg (distArr (posArr m c)) ?_
  funext a; apply Fin.ext
  have hj : (j 0).val < 1 := (j 0).isLt
  match a with
  | ⟨0, _⟩ =>
    show t.val = win0_1.index t (0 : Fin 3) * 1 + 1 * (j 0).val
    omega
  | ⟨1, _⟩ =>
    show (j 1).val = win0_1.index t (1 : Fin 3) * 512 + 1 * (j 1).val
    omega
  | ⟨2, _⟩ =>
    show (j 2).val = win0_1.index t (2 : Fin 3) * 512 + 1 * (j 2).val
    omega

/-- Point `t` writes back slab `t` of the specification's edge bits, widened. -/
theorem flushed_keep (c : Dev nD) (t : Fin cfg0.N) :
    (dats m 0 c).flushed 2 t
      = ((cfg0.win 2).blk t).view.read (Elt Ideal) (fun i : S64x512x512.Idx => (keepArr (posArr m c) i).setWidth 32) := by
  show (cfg0.win 2).cut (grid0.coords t) ((dats m 0 c).after 2 t) = _
  rw [after0_2]
  unfold out0_2
  rw [View.canon_unit_zero zeros3]
  simp only [View.ld_unit_zero (S := S512x3) zeros2]
  obtain ⟨-, -, -, -, -, e5, e6, e7⟩ := idx_facts t
  funext j
  show k0_pay3 (F := Ideal) (posBlock m c t) j = (keepArr (posArr m c) (((cfg0.win 2).blk t).view.emb j)).setWidth 32
  rw [Body.block_keep (posArr m c) (posBlock m c t) (graphOf t) (posBlock_rows m c t)]
  refine congrArg (fun i => (keepArr (posArr m c) i).setWidth 32) ?_
  funext a; apply Fin.ext
  have hj : (j 0).val < 1 := (j 0).isLt
  match a with
  | ⟨0, _⟩ =>
    show t.val = win0_2.index t (0 : Fin 3) * 1 + 1 * (j 0).val
    omega
  | ⟨1, _⟩ =>
    show (j 1).val = win0_2.index t (1 : Fin 3) * 512 + 1 * (j 1).val
    omega
  | ⟨2, _⟩ =>
    show (j 2).val = win0_2.index t (2 : Fin 3) * 512 + 1 * (j 2).val
    omega

/-! ## The slabs tile the arrays -/

/-- An index of the distance array is in point `t`'s block iff each coordinate is in the block's range. -/
theorem mem_blk1 (t : Fin cfg0.N) (i : S64x512x512.Idx) :
    i ∈ ((cfg0.win 1).blk t).view.set ↔ ∀ a : Fin 3, win0_1.index t a * S1x512x512.size a ≤ (i a).val ∧ (i a).val < win0_1.index t a * S1x512x512.size a + S1x512x512.size a := by
  show i ∈ ((View.whole main_v0_0).slice (win0_1.rect t)).set ↔ _
  rw [View.set_slice_whole, Rect.mem_set_unit]
  exact Iff.rfl

theorem mem_blk2 (t : Fin cfg0.N) (i : S64x512x512.Idx) :
    i ∈ ((cfg0.win 2).blk t).view.set ↔ ∀ a : Fin 3, win0_2.index t a * S1x512x512.size a ≤ (i a).val ∧ (i a).val < win0_2.index t a * S1x512x512.size a + S1x512x512.size a := by
  show i ∈ ((View.whole main_v0_1).slice (win0_2.rect t)).set ↔ _
  rw [View.set_slice_whole, Rect.mem_set_unit]
  exact Iff.rfl

/-- The point of graph `i 0`. -/
def pointOf (i : S64x512x512.Idx) : Fin cfg0.N := ⟨(i 0).val, by have h : (i 0).val < 64 := (i 0).isLt; have e : cfg0.N = 64 := N_0; omega⟩

theorem pointOf_val (i : S64x512x512.Idx) : (pointOf i).val = (i 0).val := rfl

/-- Every index of the distance array is in the block of the point of its graph. -/
theorem cover1 (i : S64x512x512.Idx) :
    ∃ t : Fin cfg0.N, (cfg0.win 1).flush t = true ∧ i ∈ ((cfg0.win 1).blk t).view.set := by
  have h1 : (i 1).val < 512 := (i 1).isLt
  have h2 : (i 2).val < 512 := (i 2).isLt
  have ht := pointOf_val i
  obtain ⟨-, -, e2, e3, e4, -⟩ := idx_facts (pointOf i)
  refine ⟨pointOf i, flush0_1 _, ?_⟩
  rw [mem_blk1]
  intro a
  match a with
  | ⟨0, _⟩ =>
    show win0_1.index (pointOf i) (0 : Fin 3) * 1 ≤ (i 0).val ∧ (i 0).val < win0_1.index (pointOf i) (0 : Fin 3) * 1 + 1
    omega
  | ⟨1, _⟩ =>
    show win0_1.index (pointOf i) (1 : Fin 3) * 512 ≤ (i 1).val ∧ (i 1).val < win0_1.index (pointOf i) (1 : Fin 3) * 512 + 512
    omega
  | ⟨2, _⟩ =>
    show win0_1.index (pointOf i) (2 : Fin 3) * 512 ≤ (i 2).val ∧ (i 2).val < win0_1.index (pointOf i) (2 : Fin 3) * 512 + 512
    omega

theorem cover2 (i : S64x512x512.Idx) :
    ∃ t : Fin cfg0.N, (cfg0.win 2).flush t = true ∧ i ∈ ((cfg0.win 2).blk t).view.set := by
  have h1 : (i 1).val < 512 := (i 1).isLt
  have h2 : (i 2).val < 512 := (i 2).isLt
  have ht := pointOf_val i
  obtain ⟨-, -, -, -, -, e5, e6, e7⟩ := idx_facts (pointOf i)
  refine ⟨pointOf i, flush0_2 _, ?_⟩
  rw [mem_blk2]
  intro a
  match a with
  | ⟨0, _⟩ =>
    show win0_2.index (pointOf i) (0 : Fin 3) * 1 ≤ (i 0).val ∧ (i 0).val < win0_2.index (pointOf i) (0 : Fin 3) * 1 + 1
    omega
  | ⟨1, _⟩ =>
    show win0_2.index (pointOf i) (1 : Fin 3) * 512 ≤ (i 1).val ∧ (i 1).val < win0_2.index (pointOf i) (1 : Fin 3) * 512 + 512
    omega
  | ⟨2, _⟩ =>
    show win0_2.index (pointOf i) (2 : Fin 3) * 512 ≤ (i 2).val ∧ (i 2).val < win0_2.index (pointOf i) (2 : Fin 3) * 512 + 512
    omega

/-! ## The arrays after the run -/

/-- The distance array after the run: the specification's distances of the position table. -/
theorem final_dist (c : Dev nD) :
    (dats m 0 c).arrAt 1 cfg0.N = distArr (m ((c : Thread nD τ).loc main_arg1)) :=
  ((dats m 0 c).arrAt_eq_of_cover 1 (distArr (posArr m c)) (fun t _ => flushed_dist m c t) cover1).trans
    (congrArg distArr (V_main_arg1 m c))

/-- The edge-word array after the run: the specification's edge bits, widened. -/
theorem final_keep (c : Dev nD) :
    (dats m 0 c).arrAt 2 cfg0.N
      = fun i : S64x512x512.Idx => (keepArr (m ((c : Thread nD τ).loc main_arg1)) i).setWidth 32 :=
  ((dats m 0 c).arrAt_eq_of_cover 2 (fun i : S64x512x512.Idx => (keepArr (posArr m c) i).setWidth 32)
    (fun t _ => flushed_keep m c t) cover2).trans
    (congrArg (fun X : SPos.Idx → EReal => fun i : S64x512x512.Idx => (keepArr X i).setWidth 32) (V_main_arg1 m c))

end Cert.KernelIdeal.Arrays

end
-- ==== Proof.RefSide.lean ====
/-
  The reference computes the pairwise distances and the edge bits of `Cert.PairDist`.

  The reference views the position table as 64 graphs of 512 nodes (a reshape: row `b * 512 + p` is node `p` of
  graph `b`), subtracts the two broadcasts of it, squares, sums the three coordinates from zero, takes the square root, and
  keeps a pair when the distance is at most `5.0` and the pair is off the diagonal — the diagonal written as the
  complement of `row + 0 = column`. Read at one entry `(b, p, q)` this is the distance and the edge bit of the
  specification: the only arithmetic is that of the row index, `((b * 512 + p) * 3 + k) / 3 = b * 512 + p`.
-/
import proofs.«102643_j72224170049741_1_alg».proof.Proof.Gen.ReferenceIdeal.Read
import proofs.«102643_j72224170049741_1_alg».proof.Proof.Spec
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Read Idealize.ShloMosaic Idealize.ShloMosaic.ValueIdx Cert.PairDist

/-- The left operand of the difference at `(b, p, q, k)` is coordinate `k` of node `p` of graph `b`. -/
theorem idx_left (b : Fin 64) (p q : Fin 512) (k : Fin 3) :
    idx_main_v0 (idx_main_v1 (idx_main_v3 (idx_main_v7 (ix3 b p q) k))) = ix2 (node b p) k := by
  funext a; apply Fin.ext
  have hk := k.isLt
  match a with
  | ⟨0, _⟩ => show ((b.val * 512 + p.val) * 3 + k.val) / 3 = b.val * 512 + p.val; omega
  | ⟨1, _⟩ => show ((b.val * 512 + p.val) * 3 + k.val) % 3 = k.val; omega

/-- The right operand is coordinate `k` of node `q`. -/
theorem idx_right (b : Fin 64) (p q : Fin 512) (k : Fin 3) :
    idx_main_v0 (idx_main_v2 (idx_main_v4 (idx_main_v7 (ix3 b p q) k))) = ix2 (node b q) k := by
  funext a; apply Fin.ext
  have hk := k.isLt
  match a with
  | ⟨0, _⟩ => show ((b.val * 512 + q.val) * 3 + k.val) / 3 = b.val * 512 + q.val; omega
  | ⟨1, _⟩ => show ((b.val * 512 + q.val) * 3 + k.val) % 3 = k.val; omega

/-- The reference's distance array is the specification's. -/
theorem ref_dist (x : S32768x3.Idx → EReal) : val_main_v8 (F := Ideal) x = distArr x := by
  funext i
  obtain ⟨b, p, q, rfl⟩ : ∃ (b : Fin 64) (p q : Fin 512), i = ix3 b p q := ⟨i 0, i 1, i 2, eq_ix3 i⟩
  rw [val_main_v8_apply, val_main_v7_apply]
  simp only [val_main_v6_apply, val_main_v5_apply, val_main_v3_apply, val_main_v4_apply, val_main_v1_apply,
    val_main_v2_apply, val_main_v0_apply, val_main_cst_apply, idx_left, idx_right]
  show Ideal.sqrt (Ideal.ofBits .f32 0x00000000#32 + _) = _
  rw [Ideal.ofBits_zero_f32, zero_add]
  rfl

/-- The reference's edge bits are the specification's. -/
theorem ref_keep (x : S32768x3.Idx → EReal) : val_main_v19 (F := Ideal) x = keepArr x := by
  funext i
  obtain ⟨b, p, q, rfl⟩ : ∃ (b : Fin 64) (p q : Fin 512), i = ix3 b p q := ⟨i 0, i 1, i 2, eq_ix3 i⟩
  rw [val_main_v19_apply, val_main_v10_apply, val_main_v18_apply, val_main_v17_apply, val_main_v16_apply,
    val_main_v15_apply, val_main_v14_apply, val_main_v13_apply, val_main_c_apply, val_main_v11_apply,
    val_main_v12_apply, val_main_v9_apply, val_main_cst_0_apply, ref_dist, not_eq_add_zero]
  rfl

end Cert.ReferenceIdeal.RefSide

end
-- ==== Proof.Tail.lean ====
/-
  The kernel's whole run, read: its four results as the reference's own stages.

  After the region the distance array and the edge-word array hold the specification's distances and widened edge
  bits. The host lines that follow turn the edge words back into bits (`word ≠ 0`, which undoes the widening), count them per graph,
  flatten them, and build the table of candidate index pairs, which depends on no input. The reference's distances and edge
  bits are the specification's too, and its count, its flattening and its index table are the same operations, so each of the
  kernel's results is the reference's stage of the same name applied to the same position table.
-/
import proofs.«102643_j72224170049741_1_alg».proof.Proof.Arrays
import proofs.«102643_j72224170049741_1_alg».proof.Proof.RefSide
import Idealize.ShloMosaic.Lib.StableHlo.Run
import Idealize.ShloMosaic.Lib.Pipeline.Value

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx Cert.PairDist
open Idealize.ShloMosaic.Pipeline (Dat)

variable (m : (ℓ : Loc nD τ sig) → Buf (Elt Ideal) ℓ) (ρ : Dev nD → PrngReg)

/-- The position table at launch. -/
abbrev pos (c : Dev nD) : SPos.Idx → EReal := m ((c : Thread nD τ).loc main_arg1)

/-- Reading widened bits back by `word ≠ 0` gives the bits. -/
theorem bits_of_widened (K : S64x512x512.Idx → BitVec 1) :
    id (cmpi .ne (fun i : S64x512x512.Idx => (K i).setWidth 32)
      (broadcastInDim S64x512x512 ![] bcast_S_S64x512x512 (constantI S_ 32 0#32))) = K := by
  funext i
  show IntOp.cmpi .ne ((K i).setWidth 32) (broadcastInDim S64x512x512 ![] bcast_S_S64x512x512 (constantI S_ 32 0#32) i) = K i
  rw [broadcastInDim_apply _ bcast_S_S64x512x512 (constantI S_ 32 0#32) i (fun a => a.elim0) (fun a => a.elim0)]
  exact widen_ne_zero (K i)

/-- The edge-word array as the host lines after the region find it. -/
theorem words_after (c : Dev nD) :
    Pipeline.withArrays (cfgs 0).spec c (V0 m c) (fun w => (dats m 0 c).arrAt w (cfgs 0).N) (Proc.devRef .tc main_v0_1)
      = fun i : S64x512x512.Idx => (keepArr (pos m c) i).setWidth 32 :=
  (Pipeline.withArrays_arr spec0 launch0.win.arr_inj c _ _ 2).trans (Arrays.final_keep m c)

/-- The host's bits are the reference's edge bits. -/
theorem bits_eq (c : Dev nD) :
    id (cmpi .ne (fun i : S64x512x512.Idx => (keepArr (pos m c) i).setWidth 32)
      (broadcastInDim S64x512x512 ![] bcast_S_S64x512x512 (constantI S_ 32 0#32)))
      = Cert.ReferenceIdeal.Read.val_main_v19 (F := Ideal) (pos m c) :=
  (bits_of_widened _).trans (Cert.ReferenceIdeal.RefSide.ref_keep (pos m c)).symm

/-- The table of candidate index pairs. -/
theorem tail_pairs (c : Dev nD) :
    Pipeline.afterTail₀ cfgs (dats m) 0 (V0 m) [hostOps1] c main_v22 = Cert.ReferenceIdeal.Read.val_main_v38 (F := Ideal) := by
  unfold Pipeline.afterTail₀
  show StableHlo.after hostOps1 _ (Proc.devRef .tc main_v22) = _
  after_results
  rfl

/-- The flattened edge bits. -/
theorem tail_flat (c : Dev nD) :
    Pipeline.afterTail₀ cfgs (dats m) 0 (V0 m) [hostOps1] c main_v23
      = Cert.ReferenceIdeal.Read.val_main_v39 (F := Ideal) (pos m c) := by
  unfold Pipeline.afterTail₀
  show StableHlo.after hostOps1 _ (Proc.devRef .tc main_v23) = _
  after_results
  rw [words_after, bits_eq]
  rfl

/-- The edge counts. -/
theorem tail_count (c : Dev nD) :
    Pipeline.afterTail₀ cfgs (dats m) 0 (V0 m) [hostOps1] c main_v5
      = Cert.ReferenceIdeal.Read.val_main_v21 (F := Ideal) (pos m c) := by
  unfold Pipeline.afterTail₀
  show StableHlo.after hostOps1 _ (Proc.devRef .tc main_v5) = _
  after_results
  rw [words_after, bits_eq]
  rfl

/-- The kernel's run: every weakly fair execution ends with the four results at the reference's stages of the position
    table, and the arguments unchanged. -/
theorem run : θ_run defs (onTc (τ := τ) (main (F := Ideal))) ⟨m, fun _ => 0, ρ⟩ fun r => ∀ c : Dev nD,
      r.2.mem ((c.tc : Thread nD τ).loc main_v22) = Cert.ReferenceIdeal.Read.val_main_v38 (F := Ideal)
      ∧ r.2.mem ((c.tc : Thread nD τ).loc main_v23) = Cert.ReferenceIdeal.Read.val_main_v39 (F := Ideal) (pos m c)
      ∧ r.2.mem ((c.tc : Thread nD τ).loc main_v5) = Cert.ReferenceIdeal.Read.val_main_v21 (F := Ideal) (pos m c)
      ∧ r.2.mem ((c.tc : Thread nD τ).loc main_v0_0) = Cert.ReferenceIdeal.Read.val_main_v8 (F := Ideal) (pos m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v22 (Pipeline.mem_restRefs_of main_v22 (by decide) (by decide))).trans (tail_pairs m c),
     ((h c).2 main_v23 (Pipeline.mem_restRefs_of main_v23 (by decide) (by decide))).trans (tail_flat m c),
     ((h c).2 main_v5 (Pipeline.mem_restRefs_of main_v5 (by decide) (by decide))).trans (tail_count m c),
     (((h c).1 1).trans (Arrays.final_dist m c)).trans (Cert.ReferenceIdeal.RefSide.ref_dist (pos m c)).symm,
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c)))⟩)
    (run_main m ρ)

end Cert.KernelIdeal.Tail

end
-- ==== Proof.lean ====
/-
  Pairwise distances within a cutoff, 64 graphs of 512 nodes: the kernel against its reference.

  For each graph the kernel computes, for every ordered pair of nodes, the Euclidean distance (the square root of the sum over the
  three coordinates of the squared difference) and the bit "distance at most 5.0, and not the same node"; around it the
  host counts the bits per graph, flattens them, and builds the table of candidate index pairs. The reference does the same on
  the whole batch at once. On the extended reals the two agree entry by entry: the sum of three squares is one sum whatever order
  it is taken in, both square roots are the same function, the cutoff is the same literal, "row ≠ column" is the complement of
  "row + 0 = column", and reading a widened bit back by "word ≠ 0" returns the bit. No finiteness of the inputs is used.

  The three programs run, terminate and leave their arguments as launched (the frames); the idealized kernel is the
  kernel's own text (nothing was rewritten, so there is nothing to preserve); and the idealized kernel and reference end with
  equal results.
-/
import proofs.«102643_j72224170049741_1_alg».proof.Defs
import proofs.«102643_j72224170049741_1_alg».proof.Proof.Gen.Kernel
import proofs.«102643_j72224170049741_1_alg».proof.Proof.Gen.Kernel.Frame
import proofs.«102643_j72224170049741_1_alg».proof.Proof.Gen.KernelIdeal
import proofs.«102643_j72224170049741_1_alg».proof.Proof.Gen.KernelIdeal.Frame
import proofs.«102643_j72224170049741_1_alg».proof.Proof.Gen.ReferenceIdeal
import proofs.«102643_j72224170049741_1_alg».proof.Proof.Gen.ReferenceIdeal.Run
import proofs.«102643_j72224170049741_1_alg».proof.Proof.Gen.ReferenceIdeal.Read
import proofs.«102643_j72224170049741_1_alg».proof.Proof.Gen.Pre_finite_inputs
import proofs.«102643_j72224170049741_1_alg».proof.Proof.Tail
import Idealize.ShloMosaic.Adequacy
import Idealize.ShloMosaic.Init

noncomputable section

namespace Cert.Proof

open Idealize.ShloMosaic Idealize.ShloMosaic.TcCoe Idealize.SL.Sem

/-- The kernel, word for word: it runs and leaves its arguments. -/
theorem frame_kernel : Cert.frame_Kernel := fun m ρ _ => Cert.Kernel.Gen.frame m ρ

/-- The same text read on the extended reals. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2.2.2)
    (Cert.ReferenceIdeal.Value.run (F := Ideal) m ρ)

/-- Nothing was rewritten in the kernel's text. -/
theorem preserves : Cert.preserves_Kernel_KernelIdeal := trivial

/-- From memories that agree on the arguments, both programs end with the reference's four stages of the one position
    table: the kernel by its run read back, the reference by its own run. -/
theorem algebraic : Cert.algebraic_KernelIdeal_ReferenceIdeal := by
  intro m ρ m' ρ' _ hagree
  refine ⟨_, _, _, _, Cert.KernelIdeal.Tail.run m ρ, ?_⟩
  refine (θ_run Cert.ReferenceIdeal.defs _ _).mono (fun _ h c => ?_)
    (Cert.ReferenceIdeal.Value.run (F := Ideal) m' ρ')
  obtain ⟨h1, h2, h3, h4, h5, h6⟩ := h c
  refine ⟨h1.trans ?_, h2.trans ?_, h3.trans ?_, h4.trans ?_, h5, h6⟩
  · exact Cert.ReferenceIdeal.Read.val_main_v38_eq
  · rw [(hagree c).2]
    exact Cert.ReferenceIdeal.Read.val_main_v39_eq _
  · rw [(hagree c).2]
    exact Cert.ReferenceIdeal.Read.val_main_v21_eq _
  · rw [(hagree c).2]
    exact Cert.ReferenceIdeal.Read.val_main_v8_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
